-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part1 {F : FTy → Type} [FloatOps F] (main_arg4 : FVec F S4096x16 .f32) (main_v13 : IVec S_ 1) (main_v16 : IVec S16x4096 1) : IVec S_ 1 :=
  let main_c_5 : IVec S_ 1 := constantI S_ 1 1#1
  let main_v17 : IVec S_ 1 := (fun x v => Host.reduce IntOp.andi x v reducesTo_S16x4096_S_d0_1 h_S_) main_v16 main_c_5
  let main_v18 : IVec S_ 1 := andi main_v13 main_v17
  let main_v19 : FVec F S4096x16 .f32 := Host.absf main_arg4
  let main_cst_6 : FVec F S_ .f32 := constant S_ .f32 0x7F800000#32
  let main_v20 : FVec F S4096x16 .f32 := broadcastInDim S4096x16 ![] bcast_S_S4096x16 main_cst_6
  let main_v21 : IVec S4096x16 1 := cmpf .olt main_v19 main_v20
  let main_c_7 : IVec S_ 1 := constantI S_ 1 1#1
  let main_v22 : IVec S_ 1 := (fun x v => Host.reduce IntOp.andi x v reducesTo_S4096x16_S_d0_1 h_S_) main_v21 main_c_7
  let main_v23 : IVec S_ 1 := andi main_v18 main_v22
  main_v23

def fn {F : FTy → Type} [FloatOps F] (main_arg0 : FVec F S4x4096x4096 .f32) (main_arg1 : FVec F S4096x4096 .f32) (main_arg2 : FVec F S4096 .f32) (main_arg3 : FVec F S16x4096 .f32) (main_arg4 : FVec F S4096x16 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S16x4096 .f32 := Host.absf main_arg3
  let main_cst_4 : FVec F S_ .f32 := constant S_ .f32 0x7F800000#32
  let main_v15 : FVec F S16x4096 .f32 := broadcastInDim S16x4096 ![] bcast_S_S16x4096 main_cst_4
  let main_v16 : IVec S16x4096 1 := cmpf .olt main_v14 main_v15
  fn_part1 (F := F) main_arg4 main_v13 main_v16
-- ==== Kernel.lean ====
abbrev S4x4096x4096 : Shape := ⟨3, ![4, 4096, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S16384x4096 : Shape := ⟨2, ![16384, 4096]⟩
abbrev S1x4096 : Shape := ⟨2, ![1, 4096]⟩
abbrev S256x1024 : Shape := ⟨2, ![256, 1024]⟩
abbrev S4096x1024 : Shape := ⟨2, ![4096, 1024]⟩
abbrev S16x1024 : Shape := ⟨2, ![16, 1024]⟩
abbrev S256x4096 : Shape := ⟨2, ![256, 4096]⟩
abbrev S256x16 : Shape := ⟨2, ![256, 16]⟩

abbrev nBuf : Space → Nat
  | .hbm => 13
  | .vmem => 12
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S16384x4096, .f32⟩
  | .hbm, ⟨6, _⟩ => ⟨S16384x4096, .bf16⟩
  | .hbm, ⟨7, _⟩ => ⟨S4096x4096, .bf16⟩
  | .hbm, ⟨8, _⟩ => ⟨S16x4096, .bf16⟩
  | .hbm, ⟨9, _⟩ => ⟨S4096x16, .bf16⟩
  | .hbm, ⟨10, _⟩ => ⟨S1x4096, .f32⟩
  | .hbm, ⟨11, _⟩ => ⟨S16384x4096, .f32⟩
  | .hbm, ⟨12, _⟩ => ⟨S4x4096x4096, .f32⟩
  | .local _ .vmem, ⟨0, _⟩ => ⟨S256x1024, .bf16⟩
  | .local _ .vmem, ⟨1, _⟩ => ⟨S256x1024, .bf16⟩
  | .local _ .vmem, ⟨2, _⟩ => ⟨S4096x1024, .bf16⟩
  | .local _ .vmem, ⟨3, _⟩ => ⟨S4096x1024, .bf16⟩
  | .local _ .vmem, ⟨4, _⟩ => ⟨S16x1024, .bf16⟩
  | .local _ .vmem, ⟨5, _⟩ => ⟨S16x1024, .bf16⟩
  | .local _ .vmem, ⟨6, _⟩ => ⟨S4096x16, .bf16⟩
  | .local _ .vmem, ⟨7, _⟩ => ⟨S1x4096, .f32⟩
  | .local _ .vmem, ⟨8, _⟩ => ⟨S256x4096, .f32⟩
  | .local _ .vmem, ⟨9, _⟩ => ⟨S256x4096, .f32⟩
  | .local _ .vmem, ⟨10, _⟩ => ⟨S256x4096, .f32⟩
  | .local _ .vmem, ⟨11, _⟩ => ⟨S256x16, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![64, 4], ![false, false]⟩

def k0_cond2 (i : grid0.Coords) : BitVec 1 :=
  let arg1 : BitVec 32 := BitVec.ofNat 32 (i 1).val
  let c3_i32 : BitVec 32 := 3#32
  let v21 : BitVec 1 := Scalar.cmpi .eq arg1 c3_i32
  let v22 : BitVec 32 := Scalar.extui v21
  let c0_i32_15 : BitVec 32 := 0#32
  let v23 : BitVec 1 := Scalar.cmpi .ne v22 c0_i32_15
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S4096x16 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S4x4096x4096_S16384x4096 : S4x4096x4096.ShapeCasts S16384x4096
  bitsLt_bf16_f32 : FTy.bits .bf16 < FTy.bits .f32
  shapeCasts_S4096_S1x4096 : S4096.ShapeCasts S1x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S256x16_S256x16_0_0 : ∀ a, (![0, 0] : Fin 2 → Nat) a + S256x16.size a ≤ S256x16.size a
  h_S256x16 : 0 < S256x16.numel
  shapeCasts_S256x16_S256x16 : S256x16.ShapeCasts S256x16
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  inb_S4096x16_S4096x16_0_0 : ∀ a, (![0, 0] : Fin 2 → Nat) a + S4096x16.size a ≤ S4096x16.size a
  h_S4096x16 : 0 < S4096x16.numel
  shapeCasts_S4096x16_S4096x16 : S4096x16.ShapeCasts S4096x16
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  shapeCasts_S16384x4096_S4x4096x4096 : S16384x4096.ShapeCasts S4x4096x4096
  dot_S256x1024_S4096x1024_S256x4096_1_1_0_0_n_n_wf : DotDims.WF S256x1024 S4096x1024 S256x4096 [1] [1] [0] [0] [] []
  dot_S256x1024_S16x1024_S256x16_1_1_0_0_n_n_wf : DotDims.WF S256x1024 S16x1024 S256x16 [1] [1] [0] [0] [] []
  dot_S256x16_S4096x16_S256x4096_1_1_0_0_n_n_wf : DotDims.WF S256x16 S4096x16 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x4096.size a
  hwx0_0 : ∀ i : grid0.Coords, EltTy.bits .bf16 = 32 ∨ (Rect.block (s := S16384x4096) S256x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x4096.size a
  hwx0_1 : ∀ i : grid0.Coords, EltTy.bits .bf16 = 32 ∨ (Rect.block (s := S4096x4096) S4096x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x1024.size a ≤ S16x4096.size a
  hwx0_2 : ∀ i : grid0.Coords, EltTy.bits .bf16 = 32 ∨ (Rect.block (s := S16x4096) S16x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x16.size a ≤ S4096x16.size a
  hwx0_3 : ∀ i : grid0.Coords, EltTy.bits .bf16 = 32 ∨ (Rect.block (s := S4096x16) S4096x16.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x4096.size a ≤ S16384x4096.size a
  hwx0_5 : ∀ i : grid0.Coords, EltTy.bits .f32 = 32 ∨ (Rect.block (s := S16384x4096) S256x4096.size (cc0_transform_5 i) (hinb0_5 i)).WholeWords (EltTy.packing .f32)

variable [Facts₀]

def dot_S256x1024_S4096x1024_S256x4096_1_1_0_0_n_n : DotDims S256x1024 S4096x1024 S256x4096 where
  lhsContracting := [1]
  rhsContracting := [1]
  lhsNonContracting := [0]
  rhsNonContracting := [0]
  lhsBatch := []
  rhsBatch := []
  wf := dot_S256x1024_S4096x1024_S256x4096_1_1_0_0_n_n_wf
def dot_S256x1024_S16x1024_S256x16_1_1_0_0_n_n : DotDims S256x1024 S16x1024 S256x16 where
  lhsContracting := [1]
  rhsContracting := [1]
  lhsNonContracting := [0]
  rhsNonContracting := [0]
  lhsBatch := []
  rhsBatch := []
  wf := dot_S256x1024_S16x1024_S256x16_1_1_0_0_n_n_wf
def dot_S256x16_S4096x16_S256x4096_1_1_0_0_n_n : DotDims S256x16 S4096x16 S256x4096 where
  lhsContracting := [1]
  rhsContracting := [1]
  lhsNonContracting := [0]
  rhsNonContracting := [0]
  lhsBatch := []
  rhsBatch := []
  wf := dot_S256x16_S4096x16_S256x4096_1_1_0_0_n_n_wf

abbrev win0_0 : Pipeline.Window sig grid0 :=
  Pipeline.Window.ofSpec (Memref.whole main_v1) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S4096x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S16x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S4096x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S256x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4x4096x4096 : Shape := ⟨3, ![4, 4096, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S1x1x4096 : Shape := ⟨3, ![1, 1, 4096]⟩
abbrev S4x4096x16 : Shape := ⟨3, ![4, 4096, 16]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S4x4096x4096, .f32⟩
  | .hbm, ⟨6, _⟩ => ⟨S1x1x4096, .f32⟩
  | .hbm, ⟨7, _⟩ => ⟨S4x4096x4096, .f32⟩
  | .hbm, ⟨8, _⟩ => ⟨S4x4096x4096, .f32⟩
  | .hbm, ⟨9, _⟩ => ⟨S4x4096x16, .f32⟩
  | .hbm, ⟨10, _⟩ => ⟨S4x4096x4096, .f32⟩
  | .hbm, ⟨11, _⟩ => ⟨S_, .f32⟩
  | .hbm, ⟨12, _⟩ => ⟨S4x4096x4096, .f32⟩
  | .hbm, ⟨13, _⟩ => ⟨S4x4096x4096, .f32⟩
  | .hbm, ⟨14, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)
  bcast_S_S4x4096x4096 : S_.BroadcastsInDim S4x4096x4096 (![] : Fin 0 → Fin S4x4096x4096.rank)
  dot_S4x4096x4096_S4096x4096_S4x4096x4096_2_1_01_0_n_n_wf : DotDims.WF S4x4096x4096 S4096x4096 S4x4096x4096 [2] [1] [0, 1] [0] [] []
  dot_S4x4096x4096_S16x4096_S4x4096x16_2_1_01_0_n_n_wf : DotDims.WF S4x4096x4096 S16x4096 S4x4096x16 [2] [1] [0, 1] [0] [] []
  dot_S4x4096x16_S4096x16_S4x4096x4096_2_1_01_0_n_n_wf : DotDims.WF S4x4096x16 S4096x16 S4x4096x4096 [2] [1] [0, 1] [0] [] []

variable [Facts₀]

def dot_S4x4096x4096_S4096x4096_S4x4096x4096_2_1_01_0_n_n : DotDims S4x4096x4096 S4096x4096 S4x4096x4096 where
  lhsContracting := [2]
  rhsContracting := [1]
  lhsNonContracting := [0, 1]
  rhsNonContracting := [0]
  lhsBatch := []
  rhsBatch := []
  wf := dot_S4x4096x4096_S4096x4096_S4x4096x4096_2_1_01_0_n_n_wf
def dot_S4x4096x4096_S16x4096_S4x4096x16_2_1_01_0_n_n : DotDims S4x4096x4096 S16x4096 S4x4096x16 where
  lhsContracting := [2]
  rhsContracting := [1]
  lhsNonContracting := [0, 1]
  rhsNonContracting := [0]
  lhsBatch := []
  rhsBatch := []
  wf := dot_S4x4096x4096_S16x4096_S4x4096x16_2_1_01_0_n_n_wf
def dot_S4x4096x16_S4096x16_S4x4096x4096_2_1_01_0_n_n : DotDims S4x4096x16 S4096x16 S4x4096x4096 where
  lhsContracting := [2]
  rhsContracting := [1]
  lhsNonContracting := [0, 1]
  rhsNonContracting := [0]
  lhsBatch := []
  rhsBatch := []
  wf := dot_S4x4096x16_S4096x16_S4x4096x4096_2_1_01_0_n_n_wf

class Facts : Prop extends Facts₀ where

variable [Facts]
-- ==== Proof.Spec.lean ====
/-
  The mathematics of the low-rank-adapted dense layer, with no program in sight.

  Both programs compute, for every row `x` of the (batch·sequence) × 4096 input and every output column `o`,

      (⟨x, W o⟩ + b o) + 2 · ∑ r < 16, ⟨x, A r⟩ · B o r

  over the extended reals, where ⟨·,·⟩ is the inner product over the 4096 input features.  The kernel forms each
  inner product in four consecutive stretches of 1024 features, added one after another to a running total that
  starts at zero; the reference forms it in one sum.  A sum over `range (n + k)` splits into the sum over `range n`
  and the sum of the next `k` terms in any additive commutative monoid, so no finiteness of the entries is needed.

  Arrays are read here at NATURAL-NUMBER coordinates (`at2`, zero outside the array), so that "row 256·i + p, column
  1024·k + j" is plain arithmetic; `at2_fin` and `dotUpTo_full` return to coordinates in `Fin`.
-/
import Idealize.ShloMosaic.PureOps.Ideal
import Idealize.ShloMosaic.PureOps.Ideal.Laws
import Idealize.ShloMosaic.Lib.ValueIdx
import Idealize.ShloMosaic.Lib.Pipeline.Value

noncomputable section

namespace Cert.LowRank

open Idealize.ShloMosaic Idealize.ShloMosaic.ValueIdx

/-- A rank-2 array read at natural-number coordinates: its entry inside the array, zero outside. -/
def at2 {n0 n1 : ℕ} (M : (⟨2, ![n0, n1]⟩ : Shape).Idx → EReal) (r c : ℕ) : EReal :=
  if h : r < n0 ∧ c < n1 then M (ix2 ⟨r, h.1⟩ ⟨c, h.2⟩) else 0

theorem at2_of_lt {n0 n1 : ℕ} (M : (⟨2, ![n0, n1]⟩ : Shape).Idx → EReal) {r c : ℕ} (hr : r < n0) (hc : c < n1) :
    at2 M r c = M (ix2 ⟨r, hr⟩ ⟨c, hc⟩) := dif_pos ⟨hr, hc⟩

theorem at2_fin {n0 n1 : ℕ} (M : (⟨2, ![n0, n1]⟩ : Shape).Idx → EReal) (a : Fin n0) (b : Fin n1) :
    at2 M a.val b.val = M (ix2 a b) := dif_pos ⟨a.isLt, b.isLt⟩

/-- The inner product of row `r` of `X` with row `o` of `Y` over their first `n` columns. -/
def dotUpTo {n0 n1 n2 : ℕ} (X : (⟨2, ![n0, n2]⟩ : Shape).Idx → EReal) (Y : (⟨2, ![n1, n2]⟩ : Shape).Idx → EReal)
    (r o n : ℕ) : EReal :=
  ∑ d ∈ Finset.range n, at2 X r d * at2 Y o d

theorem dotUpTo_zero {n0 n1 n2 : ℕ} (X : (⟨2, ![n0, n2]⟩ : Shape).Idx → EReal) (Y : (⟨2, ![n1, n2]⟩ : Shape).Idx → EReal)
    (r o : ℕ) : dotUpTo X Y r o 0 = 0 := Finset.sum_range_zero _

/-- One more stretch of `k` columns: the inner product over `n + k` columns is the one over `n` columns plus the
    sum of the next `k` products. -/
theorem dotUpTo_add {n0 n1 n2 : ℕ} (X : (⟨2, ![n0, n2]⟩ : Shape).Idx → EReal) (Y : (⟨2, ![n1, n2]⟩ : Shape).Idx → EReal)
    (r o n k : ℕ) :
    dotUpTo X Y r o (n + k) = dotUpTo X Y r o n + ∑ j : Fin k, at2 X r (n + j.val) * at2 Y o (n + j.val) := by
  unfold dotUpTo
  rw [Finset.sum_range_add]
  exact congrArg _ (Finset.sum_range fun j => at2 X r (n + j) * at2 Y o (n + j))

/-- Over all the columns it is the inner product of the two rows. -/
theorem dotUpTo_full {n0 n1 n2 : ℕ} (X : (⟨2, ![n0, n2]⟩ : Shape).Idx → EReal) (Y : (⟨2, ![n1, n2]⟩ : Shape).Idx → EReal)
    (r : Fin n0) (o : Fin n1) : dotUpTo X Y r.val o.val n2 = ∑ d : Fin n2, X (ix2 r d) * Y (ix2 o d) := by
  unfold dotUpTo
  rw [Finset.sum_range]
  exact Finset.sum_congr rfl fun d _ => by rw [at2_fin, at2_fin]

/-- The factor two of the adapter's scaling (alpha / rank = 32 / 16), as the float word both programs carry. -/
abbrev two : EReal := Ideal.ofBits .f32 0x40000000#32

/-- The layer on the flattened input: row `i 0` of `X` against column `i 1`. -/
def layer2 (X : (⟨2, ![16384, 4096]⟩ : Shape).Idx → EReal) (W : (⟨2, ![4096, 4096]⟩ : Shape).Idx → EReal)
    (bias : (⟨2, ![1, 4096]⟩ : Shape).Idx → EReal) (A : (⟨2, ![16, 4096]⟩ : Shape).Idx → EReal)
    (B : (⟨2, ![4096, 16]⟩ : Shape).Idx → EReal) : (⟨2, ![16384, 4096]⟩ : Shape).Idx → EReal := fun i =>
  (dotUpTo X W (i 0).val (i 1).val 4096 + bias (ix2 (0 : Fin 1) (i 1)))
    + two * ∑ r : Fin 16, dotUpTo X A (i 0).val r.val 4096 * B (ix2 (i 1) r)

/-- The layer on the input as given, batch × sequence × features. -/
def layer3 (x : (⟨3, ![4, 4096, 4096]⟩ : Shape).Idx → EReal) (W : (⟨2, ![4096, 4096]⟩ : Shape).Idx → EReal)
    (b : (⟨1, ![4096]⟩ : Shape).Idx → EReal) (A : (⟨2, ![16, 4096]⟩ : Shape).Idx → EReal)
    (B : (⟨2, ![4096, 16]⟩ : Shape).Idx → EReal) : (⟨3, ![4, 4096, 4096]⟩ : Shape).Idx → EReal := fun i =>
  ((∑ d : Fin 4096, x (ix3 (i 0) (i 1) d) * W (ix2 (i 2) d)) + b (ix1 (i 2)))
    + two * ∑ r : Fin 16, (∑ d : Fin 4096, x (ix3 (i 0) (i 1) d) * A (ix2 r d)) * B (ix2 (i 2) r)

/-- Flattening batch and sequence into one row axis, running the layer on rows, and unflattening is the layer on the
    input as given: row `4096·β + σ` of the flattened input is row `(β, σ)` of the input, and the bias row is the
    bias. -/
theorem unflatten_layer2 (x : (⟨3, ![4, 4096, 4096]⟩ : Shape).Idx → EReal) (W : (⟨2, ![4096, 4096]⟩ : Shape).Idx → EReal)
    (b : (⟨1, ![4096]⟩ : Shape).Idx → EReal) (A : (⟨2, ![16, 4096]⟩ : Shape).Idx → EReal)
    (B : (⟨2, ![4096, 16]⟩ : Shape).Idx → EReal)
    (h32 : (⟨3, ![4, 4096, 4096]⟩ : Shape).ShapeCasts ⟨2, ![16384, 4096]⟩)
    (h12 : (⟨1, ![4096]⟩ : Shape).ShapeCasts ⟨2, ![1, 4096]⟩)
    (h23 : (⟨2, ![16384, 4096]⟩ : Shape).ShapeCasts ⟨3, ![4, 4096, 4096]⟩) :
    shapeCast ⟨3, ![4, 4096, 4096]⟩ (layer2 (shapeCast ⟨2, ![16384, 4096]⟩ x h32) W (shapeCast ⟨2, ![1, 4096]⟩ b h12) A B) h23
      = layer3 x W b A B := by
  funext i
  obtain ⟨β, σ, o, rfl⟩ : ∃ (β : Fin 4) (σ : Fin 4096) (o : Fin 4096), i = ix3 β σ o := ⟨i 0, i 1, i 2, eq_ix3 i⟩
  have hrow : 4096 * β.val + σ.val < 16384 := by have := β.isLt; have := σ.isLt; omega
  rw [shapeCast_apply _ h23 (ix3 β σ o) (ix2 ⟨4096 * β.val + σ.val, hrow⟩ o) (by
    rw [Shape.rowMajor_val_two, Shape.rowMajor_val_three]
    show (4096 * β.val + σ.val) * 4096 + o.val = (β.val * 4096 + σ.val) * 4096 + o.val
    omega)]
  have hx : ∀ d : Fin 4096, shapeCast ⟨2, ![16384, 4096]⟩ x h32 (ix2 ⟨4096 * β.val + σ.val, hrow⟩ d) = x (ix3 β σ d) := fun d =>
    shapeCast_apply _ h32 _ _ (by
      rw [Shape.rowMajor_val_two, Shape.rowMajor_val_three]
      show (β.val * 4096 + σ.val) * 4096 + d.val = (4096 * β.val + σ.val) * 4096 + d.val
      omega)
  have hb : shapeCast ⟨2, ![1, 4096]⟩ b h12 (ix2 (0 : Fin 1) o) = b (ix1 o) :=
    shapeCast_apply _ h12 _ _ (by
      rw [Shape.rowMajor_val_two, Shape.rowMajor_val_one]
      show o.val = 0 * 4096 + o.val
      omega)
  show (dotUpTo _ W (4096 * β.val + σ.val) o.val 4096 + _) + two * ∑ r : Fin 16, dotUpTo _ A (4096 * β.val + σ.val) r.val 4096 * _
    = _
  rw [dotUpTo_full _ W ⟨4096 * β.val + σ.val, hrow⟩ o, hb]
  simp only [dotUpTo_full _ A ⟨4096 * β.val + σ.val, hrow⟩, hx]
  rfl

end Cert.LowRank

end
-- ==== Proof.RefValue.lean ====
/-
  The reference, read index by index, is the layer of Spec.lean.

  The reference forms `x · Wᵀ` as one contraction over the 4096 features and adds the bias broadcast along batch and
  sequence; it forms `x · Aᵀ` (16 numbers per row), contracts those with `B` over the 16 ranks, doubles the result and
  adds it.  Entry `(β, σ, o)` is therefore

      (∑ d, x β σ d · W o d + b o) + 2 · ∑ r, (∑ d, x β σ d · A r d) · B o r,

  which is `layer3` word for word; nothing is re-associated on this side.
-/
import proofs.«118680_j1108101562874_1_alg».proof.Defs
import proofs.«118680_j1108101562874_1_alg».proof.Proof.Gen.ReferenceIdeal.Run
import proofs.«118680_j1108101562874_1_alg».proof.Proof.Gen.ReferenceIdeal.Read
import proofs.«118680_j1108101562874_1_alg».proof.Proof.Spec

noncomputable section

namespace Cert.ReferenceIdeal.RefValue

open Idealize.ShloMosaic Idealize.ShloMosaic.ValueIdx Cert.ReferenceIdeal Cert.ReferenceIdeal.Read

/-- The left operand's index of the two feature contractions: row `(β, σ)`, feature `k`. -/
theorem lidx_v0 (i : S4x4096x4096.Idx) (k : Fin 4096) : lidx_main_v0 i k = ix3 (i 0) (i 1) k :=
  funext fun a => by match a with | ⟨0, _⟩ => rfl | ⟨1, _⟩ => rfl | ⟨2, _⟩ => rfl

/-- The weight's index: output column `o`, feature `k`. -/
theorem ridx_v0 (i : S4x4096x4096.Idx) (k : Fin 4096) : ridx_main_v0 i k = ix2 (i 2) k :=
  funext fun a => by match a with | ⟨0, _⟩ => rfl | ⟨1, _⟩ => rfl

/-- The bias, broadcast twice, is read at the output column. -/
theorem idx_bias (i : S4x4096x4096.Idx) : idx_main_v1 (idx_main_v2 i) = ix1 (i 2) :=
  funext fun a => by match a with | ⟨0, _⟩ => rfl

/-- Inside the rank contraction, the down-projection's left index is again row `(β, σ)`, feature `k`; -/
theorem lidx_v4 (i : S4x4096x4096.Idx) (r : Fin 16) (k : Fin 4096) : lidx_main_v4 (lidx_main_v5 i r) k = ix3 (i 0) (i 1) k :=
  funext fun a => by match a with | ⟨0, _⟩ => rfl | ⟨1, _⟩ => rfl | ⟨2, _⟩ => rfl

/-- its right index is rank `r`, feature `k`; -/
theorem ridx_v4 (i : S4x4096x4096.Idx) (r : Fin 16) (k : Fin 4096) : ridx_main_v4 (lidx_main_v5 i r) k = ix2 r k :=
  funext fun a => by match a with | ⟨0, _⟩ => rfl | ⟨1, _⟩ => rfl

/-- and the up-projection is read at output column `o`, rank `r`. -/
theorem ridx_v5 (i : S4x4096x4096.Idx) (r : Fin 16) : ridx_main_v5 i r = ix2 (i 2) r :=
  funext fun a => by match a with | ⟨0, _⟩ => rfl | ⟨1, _⟩ => rfl

/-- The reference's last stage is the layer, as a function of the five arguments. -/
theorem reference_is_layer (x : (⟨S4x4096x4096, .f32⟩ : BufTy).Contents (Elt Ideal)) (W : (⟨S4096x4096, .f32⟩ : BufTy).Contents (Elt Ideal))
    (b : (⟨S4096, .f32⟩ : BufTy).Contents (Elt Ideal)) (A : (⟨S16x4096, .f32⟩ : BufTy).Contents (Elt Ideal))
    (B : (⟨S4096x16, .f32⟩ : BufTy).Contents (Elt Ideal)) :
    val_main_v8 (F := Ideal) x W b A B = Cert.LowRank.layer3 x W b A B := by
  funext i
  rw [val_main_v8_apply, val_main_v3_apply, val_main_v7_apply, val_main_v0_apply, val_main_v2_apply, val_main_v1_apply,
    val_main_v6_apply, val_main_cst_apply, val_main_v5_apply]
  simp only [val_main_v4_apply, lidx_v0, ridx_v0, idx_bias, lidx_v4, ridx_v4, ridx_v5]
  rfl

end Cert.ReferenceIdeal.RefValue

end
-- ==== Proof.Pieces.lean ====
/-
  What one run of the kernel body leaves behind, as values.

  The body keeps two running totals between grid points: `acc` (256 rows × 4096 output columns) and `xa` (256 rows × 16
  ranks).  At a point it may first reset both to zero (first feature stretch of a row block), then always adds to each
  the product of the point's input block with the point's weight block, and at the last feature stretch of a row block
  it also writes the output block from the two totals.  Each lemma below says that what a case of the body leaves in a
  buffer is the corresponding arithmetic term of the values it was handed: every store covers its whole buffer, and a
  load that follows a store of the same buffer in the same run reads what was stored.
-/
import proofs.«118680_j1108101562874_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen
open Idealize.ShloMosaic Idealize.ShloMosaic.TcCoe Idealize.ShloMosaic.Tactic Idealize.SL.Sem

variable {F : FTy → Type} [FloatOps F]

/-- Every load and store of the body starts at the origin of its buffer. -/
theorem hz : (![0, 0] : Fin 2 → Nat) = fun _ => 0 := funext fun a => by fin_cases a <;> rfl

variable (c : Dev nD) (i : grid0.Coords) (arg2 : Memref sig .tc .vmem S256x1024 .bf16) (harg2 : arg2.IsWhole) (arg3 : Memref sig .tc .vmem S4096x1024 .bf16) (harg3 : arg3.IsWhole) (arg4 : Memref sig .tc .vmem S16x1024 .bf16) (harg4 : arg4.IsWhole) (arg5 : Memref sig .tc .vmem S4096x16 .bf16) (harg5 : arg5.IsWhole) (arg6 : Memref sig .tc .vmem S1x4096 .f32) (harg6 : arg6.IsWhole) (arg7 : Memref sig .tc .vmem S256x4096 .f32) (harg7 : arg7.IsWhole) (arg8 : Memref sig .tc .vmem S256x4096 .f32) (harg8 : arg8.IsWhole) (arg9 : Memref sig .tc .vmem S256x16 .f32) (harg9 : arg9.IsWhole)
  (x0 : Vec F S256x1024 .bf16) (x1 : Vec F S4096x1024 .bf16) (x2 : Vec F S16x1024 .bf16) (x3 : Vec F S4096x16 .bf16) (x4 : Vec F S1x4096 .f32)

/-! ## First feature stretch of a row block: both totals restart from zero -/

/-- `acc` ends at `0 + x·Wᵀ` of the point's blocks: the zero block is stored, read back, and added to. -/
theorem acc_first (hc0 : cond0_0 i) (hc1 : ¬cond0_1 i) :
    sout0_A_0 c i arg2 harg2 arg3 harg3 arg4 harg4 arg5 harg5 arg6 harg6 arg7 harg7 arg8 harg8 arg9 harg9 hc0 hc1 x0 x1 x2 x3 x4 = k0_pay4 x0 x1 (k0_pay1 (F := F)) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S256x4096) hz]
  simp only [View.readAt_eq_ld, harg2.read_unread, harg3.read_unread, harg4.read_unread, harg5.read_unread, harg6.read_unread, harg8.read_unread, harg9.read_unread,
    View.readCov_unit_zero (S := S256x4096) _ hz, View.readCov_unit_zero (S := S256x16) _ hz,
    View.ld_unit_zero (S := S256x1024) hz, View.ld_unit_zero (S := S4096x1024) hz, View.ld_unit_zero (S := S16x1024) hz,
    View.ld_unit_zero (S := S4096x16) hz, View.ld_unit_zero (S := S1x4096) hz, View.ld_unit_zero (S := S256x4096) hz, View.ld_unit_zero (S := S256x16) hz]

/-- `xa` ends at `0 + x·Aᵀ` of the point's blocks. -/
theorem xa_first (hc0 : cond0_0 i) (hc1 : ¬cond0_1 i) :
    sout0_A_1 c i arg2 harg2 arg3 harg3 arg4 harg4 arg5 harg5 arg6 harg6 arg7 harg7 arg8 harg8 arg9 harg9 hc0 hc1 x0 x1 x2 x3 x4 = k0_pay5 x0 x2 (k0_pay2 (F := F)) := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S256x16) hz]
  simp only [View.readAt_eq_ld, harg2.read_unread, harg3.read_unread, harg4.read_unread, harg5.read_unread, harg6.read_unread, harg8.read_unread, harg9.read_unread,
    View.readCov_unit_zero (S := S256x4096) _ hz, View.readCov_unit_zero (S := S256x16) _ hz,
    View.ld_unit_zero (S := S256x1024) hz, View.ld_unit_zero (S := S4096x1024) hz, View.ld_unit_zero (S := S16x1024) hz,
    View.ld_unit_zero (S := S4096x16) hz, View.ld_unit_zero (S := S1x4096) hz, View.ld_unit_zero (S := S256x4096) hz, View.ld_unit_zero (S := S256x16) hz]

/-! ## A middle feature stretch: both totals grow by the point's products -/

/-- `acc` ends at what it held plus `x·Wᵀ` of the point's blocks. -/
theorem acc_middle (hc0 : ¬cond0_0 i) (hc1 : ¬cond0_1 i) (xs0 : Vec F S256x4096 .f32) (xs1 : Vec F S256x16 .f32) :
    sout0_B_0 c i arg2 harg2 arg3 harg3 arg4 harg4 arg5 harg5 arg6 harg6 arg7 harg7 arg8 harg8 arg9 harg9 hc0 hc1 x0 x1 x2 x3 x4 xs0 xs1 = k0_pay4 x0 x1 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 x4 xs0 xs1)]
  unfold kernelRun0_B
  dsimp only
  sl_unfold_words
  rw [View.canon_unit_zero hz]
  simp only [View.readAt_eq_ld, harg2.read_unread, harg3.read_unread, harg4.read_unread, harg5.read_unread, harg6.read_unread, harg8.read_unread, harg9.read_unread,
    View.readCov_unit_zero (S := S256x4096) _ hz, View.readCov_unit_zero (S := S256x16) _ hz,
    View.ld_unit_zero (S := S256x1024) hz, View.ld_unit_zero (S := S4096x1024) hz, View.ld_unit_zero (S := S16x1024) hz,
    View.ld_unit_zero (S := S4096x16) hz, View.ld_unit_zero (S := S1x4096) hz, View.ld_unit_zero (S := S256x4096) hz, View.ld_unit_zero (S := S256x16) hz]

/-- `xa` ends at what it held plus `x·Aᵀ` of the point's blocks. -/
theorem xa_middle (hc0 : ¬cond0_0 i) (hc1 : ¬cond0_1 i) (xs0 : Vec F S256x4096 .f32) (xs1 : Vec F S256x16 .f32) :
    sout0_B_1 c i arg2 harg2 arg3 harg3 arg4 harg4 arg5 harg5 arg6 harg6 arg7 harg7 arg8 harg8 arg9 harg9 hc0 hc1 x0 x1 x2 x3 x4 xs0 xs1 = k0_pay5 x0 x2 xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 x4 xs0 xs1)]
  unfold kernelRun0_B
  dsimp only
  sl_unfold_words
  rw [View.canon_unit_zero hz]
  simp only [View.readAt_eq_ld, harg2.read_unread, harg3.read_unread, harg4.read_unread, harg5.read_unread, harg6.read_unread, harg8.read_unread, harg9.read_unread,
    View.readCov_unit_zero (S := S256x4096) _ hz, View.readCov_unit_zero (S := S256x16) _ hz,
    View.ld_unit_zero (S := S256x1024) hz, View.ld_unit_zero (S := S4096x1024) hz, View.ld_unit_zero (S := S16x1024) hz,
    View.ld_unit_zero (S := S4096x16) hz, View.ld_unit_zero (S := S1x4096) hz, View.ld_unit_zero (S := S256x4096) hz, View.ld_unit_zero (S := S256x16) hz]

/-! ## The last feature stretch: the totals grow once more, and the output block is written from them -/

/-- `acc` ends at what it held plus `x·Wᵀ` of the point's blocks. -/
theorem acc_last (hc0 : ¬cond0_0 i) (hc1 : cond0_1 i) (xs0 : Vec F S256x4096 .f32) (xs1 : Vec F S256x16 .f32) :
    sout0_C_0 c i arg2 harg2 arg3 harg3 arg4 harg4 arg5 harg5 arg6 harg6 arg7 harg7 arg8 harg8 arg9 harg9 hc0 hc1 x0 x1 x2 x3 x4 xs0 xs1 = k0_pay4 x0 x1 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 x4 xs0 xs1)]
  unfold kernelRun0_C
  dsimp only
  sl_unfold_words
  rw [View.canon_unit_zero hz]
  simp only [View.readAt_eq_ld, harg2.read_unread, harg3.read_unread, harg4.read_unread, harg5.read_unread, harg6.read_unread, harg8.read_unread, harg9.read_unread,
    View.readCov_unit_zero (S := S256x4096) _ hz, View.readCov_unit_zero (S := S256x16) _ hz,
    View.ld_unit_zero (S := S256x1024) hz, View.ld_unit_zero (S := S4096x1024) hz, View.ld_unit_zero (S := S16x1024) hz,
    View.ld_unit_zero (S := S4096x16) hz, View.ld_unit_zero (S := S1x4096) hz, View.ld_unit_zero (S := S256x4096) hz, View.ld_unit_zero (S := S256x16) hz]

/-- `xa` ends at what it held plus `x·Aᵀ` of the point's blocks. -/
theorem xa_last (hc0 : ¬cond0_0 i) (hc1 : cond0_1 i) (xs0 : Vec F S256x4096 .f32) (xs1 : Vec F S256x16 .f32) :
    sout0_C_1 c i arg2 harg2 arg3 harg3 arg4 harg4 arg5 harg5 arg6 harg6 arg7 harg7 arg8 harg8 arg9 harg9 hc0 hc1 x0 x1 x2 x3 x4 xs0 xs1 = k0_pay5 x0 x2 xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 x3 x4 xs0 xs1)]
  unfold kernelRun0_C
  dsimp only
  sl_unfold_words
  rw [View.canon_unit_zero hz]
  simp only [View.readAt_eq_ld, harg2.read_unread, harg3.read_unread, harg4.read_unread, harg5.read_unread, harg6.read_unread, harg8.read_unread, harg9.read_unread,
    View.readCov_unit_zero (S := S256x4096) _ hz, View.readCov_unit_zero (S := S256x16) _ hz,
    View.ld_unit_zero (S := S256x1024) hz, View.ld_unit_zero (S := S4096x1024) hz, View.ld_unit_zero (S := S16x1024) hz,
    View.ld_unit_zero (S := S4096x16) hz, View.ld_unit_zero (S := S1x4096) hz, View.ld_unit_zero (S := S256x4096) hz, View.ld_unit_zero (S := S256x16) hz]

/-- The output block is `(acc + bias) + 2·(xa·Bᵀ)` of the two totals AS JUST UPDATED at this point. -/
theorem out_last (hc0 : ¬cond0_0 i) (hc1 : cond0_1 i) (xs0 : Vec F S256x4096 .f32) (xs1 : Vec F S256x16 .f32) :
    out0_C_5 c i arg2 harg2 arg3 harg3 arg4 harg4 arg5 harg5 arg6 harg6 arg7 harg7 arg8 harg8 arg9 harg9 hc0 hc1 x0 x1 x2 x3 x4 xs0 xs1 = k0_pay6 (k0_pay5 x0 x2 xs1) x3 (k0_pay4 x0 x1 xs0) x4 := by
  unfold out0_C_5
  rw [View.read_writes_eq_canon _ _ _ (cover0_C_5 c i arg2 harg2 arg3 harg3 arg4 harg4 arg5 harg5 arg6 harg6 arg7 harg7 arg8 harg8 arg9 harg9 hc0 hc1 x0 x1 x2 x3 x4 xs0 xs1)]
  unfold kernelRun0_C
  dsimp only
  sl_unfold_words
  rw [View.canon_unit_zero hz]
  simp only [View.readAt_eq_ld, harg2.read_unread, harg3.read_unread, harg4.read_unread, harg5.read_unread, harg6.read_unread, harg8.read_unread, harg9.read_unread,
    View.readCov_unit_zero (S := S256x4096) _ hz, View.readCov_unit_zero (S := S256x16) _ hz,
    View.ld_unit_zero (S := S256x1024) hz, View.ld_unit_zero (S := S4096x1024) hz, View.ld_unit_zero (S := S16x1024) hz,
    View.ld_unit_zero (S := S4096x16) hz, View.ld_unit_zero (S := S1x4096) hz, View.ld_unit_zero (S := S256x4096) hz, View.ld_unit_zero (S := S256x16) hz]

end Cert.KernelIdeal.Pieces

end
-- ==== Proof.Steps.lean ====
/-
  Point by point: the blocks the body is handed, and how the two running totals move from one point to the next.

  The grid is 64 row blocks × 4 feature stretches, walked stretch-fastest, so point `t` is row block `t / 4` and
  stretch `t % 4`.  At that point the input block is rows `256·(t/4) … +255`, features `1024·(t%4) … +1023` of the
  flattened input; the weight and down-projection blocks are ALL their rows at the same features; the up-projection and
  the bias are handed whole.  A block's entry `(p, k)` sits at array coordinate (block index × block size + p, …).

  The totals: at stretch 0 they restart (`0 +` the point's product); at every other stretch they are what the point
  before left, plus the point's product; at stretch 3 the output block is formed from the totals just updated.
-/
import proofs.«118680_j1108101562874_1_alg».proof.Proof.Gen.KernelIdeal.Frame
import proofs.«118680_j1108101562874_1_alg».proof.Proof.Pieces
import proofs.«118680_j1108101562874_1_alg».proof.Proof.Spec
import Idealize.ShloMosaic.Lib.Pipeline.Value

set_option maxRecDepth 16384

noncomputable section

namespace Cert.KernelIdeal.Steps

open Cert.KernelIdeal Cert.KernelIdeal.Gen Cert.KernelIdeal.Pieces Cert.LowRank
open Idealize.ShloMosaic Idealize.ShloMosaic.TcCoe Idealize.SL.Sem Idealize.ShloMosaic.ValueIdx

variable (m : (ℓ : Loc nD τ sig) → Buf (Elt Ideal) ℓ)

/-! ## The arrays the region finds, and the blocks a point is handed, at their literal shapes -/

/-- The flattened input (batch·sequence rows × features). -/
abbrev xarr (c : Dev nD) : FVec Ideal S16384x4096 .bf16 := V m c main_v1
/-- The weight, output columns × features. -/
abbrev warr (c : Dev nD) : FVec Ideal S4096x4096 .bf16 := V m c main_v2
/-- The down-projection, ranks × features. -/
abbrev aarr (c : Dev nD) : FVec Ideal S16x4096 .bf16 := V m c main_v3
/-- The up-projection, output columns × ranks. -/
abbrev barr (c : Dev nD) : FVec Ideal S4096x16 .bf16 := V m c main_v4
/-- The bias as one row. -/
abbrev biasarr (c : Dev nD) : FVec Ideal S1x4096 .f32 := V m c main_v5

abbrev xblk (c : Dev nD) (t : Fin cfg0.N) : FVec Ideal S256x1024 .bf16 := iblk m c 0 t
abbrev wblk (c : Dev nD) (t : Fin cfg0.N) : FVec Ideal S4096x1024 .bf16 := iblk m c 1 t
abbrev ablk (c : Dev nD) (t : Fin cfg0.N) : FVec Ideal S16x1024 .bf16 := iblk m c 2 t
abbrev bblk (c : Dev nD) (t : Fin cfg0.N) : FVec Ideal S4096x16 .bf16 := iblk m c 3 t
abbrev biasblk (c : Dev nD) (t : Fin cfg0.N) : FVec Ideal S1x4096 .f32 := iblk m c 4 t

/-- The output's staging block, the total `acc` and the total `xa` after point `n`. -/
abbrev outAt (c : Dev nD) (n : ℕ) (h : n < cfg0.N) : FVec Ideal S256x4096 .f32 := (outsAt0 m c n h).1
abbrev accAt (c : Dev nD) (n : ℕ) (h : n < cfg0.N) : FVec Ideal S256x4096 .f32 := (outsAt0 m c n h).2.1
abbrev xaAt (c : Dev nD) (n : ℕ) (h : n < cfg0.N) : FVec Ideal S256x16 .f32 := (outsAt0 m c n h).2.2

/-! ## Where each window's block sits: the index maps, decided once over the 256 points -/

theorem idx_facts : ∀ t : Fin cfg0.N,
    win0_0.index t (0 : Fin 2) = t.val / 4 ∧ win0_0.index t (1 : Fin 2) = t.val % 4
    ∧ win0_1.index t (0 : Fin 2) = 0 ∧ win0_1.index t (1 : Fin 2) = t.val % 4
    ∧ win0_2.index t (0 : Fin 2) = 0 ∧ win0_2.index t (1 : Fin 2) = t.val % 4
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val / 4 ∧ win0_5.index t (1 : Fin 2) = 0 :=
  (by decide +kernel : ∀ t : Fin grid0.N, _)

theorem lt_N (t : Fin cfg0.N) : t.val < 256 := lt_of_lt_of_eq t.isLt (show cfg0.N = 256 from N_0)

/-- The input block: rows of row block `t / 4`, features of stretch `t % 4`. -/
theorem xblk_apply (c : Dev nD) (t : Fin cfg0.N) (p : Fin 256) (k : Fin 1024) :
    xblk m c t (ix2 p k) = at2 (xarr m c) (256 * (t.val / 4) + p.val) (1024 * (t.val % 4) + k.val) := by
  obtain ⟨e0, e1, -⟩ := idx_facts t
  have hN := lt_N t
  have hp := p.isLt
  have hk := k.isLt
  rw [at2_of_lt _ (show 256 * (t.val / 4) + p.val < 16384 by omega) (show 1024 * (t.val % 4) + k.val < 4096 by omega)]
  show iblk m c 0 t (ix2 p k) = _
  unfold iblk
  rw [View.read_apply]
  show V m c main_v1 _ = V m c main_v1 _
  refine congrArg _ (funext fun a => Fin.ext ?_)
  match a with
  | ⟨0, _⟩ => show win0_0.index t (0 : Fin 2) * 256 + 1 * p.val = 256 * (t.val / 4) + p.val; omega
  | ⟨1, _⟩ => show win0_0.index t (1 : Fin 2) * 1024 + 1 * k.val = 1024 * (t.val % 4) + k.val; omega

/-- The weight block: every output column, features of stretch `t % 4`. -/
theorem wblk_apply (c : Dev nD) (t : Fin cfg0.N) (o : Fin 4096) (k : Fin 1024) :
    wblk m c t (ix2 o k) = at2 (warr m c) o.val (1024 * (t.val % 4) + k.val) := by
  obtain ⟨-, -, e0, e1, -⟩ := idx_facts t
  have hN := lt_N t
  have ho := o.isLt
  have hk := k.isLt
  rw [at2_of_lt _ ho (show 1024 * (t.val % 4) + k.val < 4096 by omega)]
  show iblk m c 1 t (ix2 o k) = _
  unfold iblk
  rw [View.read_apply]
  show V m c main_v2 _ = V m c main_v2 _
  refine congrArg _ (funext fun a => Fin.ext ?_)
  match a with
  | ⟨0, _⟩ => show win0_1.index t (0 : Fin 2) * 4096 + 1 * o.val = o.val; omega
  | ⟨1, _⟩ => show win0_1.index t (1 : Fin 2) * 1024 + 1 * k.val = 1024 * (t.val % 4) + k.val; omega

/-- The down-projection block: every rank, features of stretch `t % 4`. -/
theorem ablk_apply (c : Dev nD) (t : Fin cfg0.N) (ρ : Fin 16) (k : Fin 1024) :
    ablk m c t (ix2 ρ k) = at2 (aarr m c) ρ.val (1024 * (t.val % 4) + k.val) := by
  obtain ⟨-, -, -, -, e0, e1, -⟩ := idx_facts t
  have hN := lt_N t
  have hr := ρ.isLt
  have hk := k.isLt
  rw [at2_of_lt _ hr (show 1024 * (t.val % 4) + k.val < 4096 by omega)]
  show iblk m c 2 t (ix2 ρ k) = _
  unfold iblk
  rw [View.read_apply]
  show V m c main_v3 _ = V m c main_v3 _
  refine congrArg _ (funext fun a => Fin.ext ?_)
  match a with
  | ⟨0, _⟩ => show win0_2.index t (0 : Fin 2) * 16 + 1 * ρ.val = ρ.val; omega
  | ⟨1, _⟩ => show win0_2.index t (1 : Fin 2) * 1024 + 1 * k.val = 1024 * (t.val % 4) + k.val; omega

/-- The up-projection is handed whole. -/
theorem bblk_apply (c : Dev nD) (t : Fin cfg0.N) (o : Fin 4096) (ρ : Fin 16) :
    bblk m c t (ix2 o ρ) = barr m c (ix2 o ρ) := by
  obtain ⟨-, -, -, -, -, -, e0, e1, -⟩ := idx_facts t
  show iblk m c 3 t (ix2 o ρ) = _
  unfold iblk
  rw [View.read_apply]
  show V m c main_v4 _ = V m c main_v4 _
  refine congrArg _ (funext fun a => Fin.ext ?_)
  match a with
  | ⟨0, _⟩ => show win0_3.index t (0 : Fin 2) * 4096 + 1 * o.val = o.val; omega
  | ⟨1, _⟩ => show win0_3.index t (1 : Fin 2) * 16 + 1 * ρ.val = ρ.val; omega

/-- The bias row is handed whole. -/
theorem biasblk_apply (c : Dev nD) (t : Fin cfg0.N) (o : Fin 4096) :
    biasblk m c t (ix2 (0 : Fin 1) o) = biasarr m c (ix2 (0 : Fin 1) o) := by
  obtain ⟨-, -, -, -, -, -, -, -, e0, e1, -⟩ := idx_facts t
  show iblk m c 4 t (ix2 (0 : Fin 1) o) = _
  unfold iblk
  rw [View.read_apply]
  show V m c main_v5 _ = V m c main_v5 _
  refine congrArg _ (funext fun a => Fin.ext ?_)
  match a with
  | ⟨0, _⟩ => show win0_4.index t (0 : Fin 2) * 1 + 1 * 0 = 0; omega
  | ⟨1, _⟩ => show win0_4.index t (1 : Fin 2) * 4096 + 1 * o.val = o.val; omega

/-! ## How the totals move -/

/-- At the first stretch of a row block `acc` restarts: zero plus the point's product. -/
theorem accAt_first (c : Dev nD) (t : Fin cfg0.N) (h0 : t.val % 4 = 0) :
    accAt m c t.val t.isLt = k0_pay4 (xblk m c t) (wblk m c t) (k0_pay1 (F := Ideal)) := by
  have h1 : ¬t.val % 4 = 3 := by omega
  show (outsAt0 m c t.val t.isLt).2.1 = _
  rw [outsAt0_A m c t h0 h1]
  try dsimp only
  exact acc_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t) ((hcond0_0 t).mpr h0) (fun h => h1 ((hcond0_1 t).mp h))

/-- At the first stretch of a row block `xa` restarts: zero plus the point's product. -/
theorem xaAt_first (c : Dev nD) (t : Fin cfg0.N) (h0 : t.val % 4 = 0) :
    xaAt m c t.val t.isLt = k0_pay5 (xblk m c t) (ablk m c t) (k0_pay2 (F := Ideal)) := by
  have h1 : ¬t.val % 4 = 3 := by omega
  show (outsAt0 m c t.val t.isLt).2.2 = _
  rw [outsAt0_A m c t h0 h1]
  try dsimp only
  exact xa_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t) ((hcond0_0 t).mpr h0) (fun h => h1 ((hcond0_1 t).mp h))

/-- At any later stretch `acc` is what the point before left plus the point's product. -/
theorem accAt_next (c : Dev nD) (t : Fin cfg0.N) (h0 : ¬t.val % 4 = 0) :
    accAt m c t.val t.isLt
      = k0_pay4 (xblk m c t) (wblk m c t) (accAt m c (t.val - 1) (Nat.lt_of_le_of_lt (Nat.sub_le _ _) t.isLt)) := by
  show (outsAt0 m c t.val t.isLt).2.1 = _
  by_cases h1 : t.val % 4 = 3
  · rw [outsAt0_C m c t h0 h1]
    try dsimp only
    exact acc_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t) (fun h => h0 ((hcond0_0 t).mp h)) ((hcond0_1 t).mpr h1) (outsAt0 m c (t.val - 1) (Nat.lt_of_le_of_lt (Nat.sub_le _ _) t.isLt)).2.1 (outsAt0 m c (t.val - 1) (Nat.lt_of_le_of_lt (Nat.sub_le _ _) t.isLt)).2.2
  · rw [outsAt0_B m c t h0 h1]
    try dsimp only
    exact acc_middle (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t) (fun h => h0 ((hcond0_0 t).mp h)) (fun h => h1 ((hcond0_1 t).mp h)) (outsAt0 m c (t.val - 1) (Nat.lt_of_le_of_lt (Nat.sub_le _ _) t.isLt)).2.1 (outsAt0 m c (t.val - 1) (Nat.lt_of_le_of_lt (Nat.sub_le _ _) t.isLt)).2.2

/-- At any later stretch `xa` is what the point before left plus the point's product. -/
theorem xaAt_next (c : Dev nD) (t : Fin cfg0.N) (h0 : ¬t.val % 4 = 0) :
    xaAt m c t.val t.isLt
      = k0_pay5 (xblk m c t) (ablk m c t) (xaAt m c (t.val - 1) (Nat.lt_of_le_of_lt (Nat.sub_le _ _) t.isLt)) := by
  show (outsAt0 m c t.val t.isLt).2.2 = _
  by_cases h1 : t.val % 4 = 3
  · rw [outsAt0_C m c t h0 h1]
    try dsimp only
    exact xa_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t) (fun h => h0 ((hcond0_0 t).mp h)) ((hcond0_1 t).mpr h1) (outsAt0 m c (t.val - 1) (Nat.lt_of_le_of_lt (Nat.sub_le _ _) t.isLt)).2.1 (outsAt0 m c (t.val - 1) (Nat.lt_of_le_of_lt (Nat.sub_le _ _) t.isLt)).2.2
  · rw [outsAt0_B m c t h0 h1]
    try dsimp only
    exact xa_middle (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t) (fun h => h0 ((hcond0_0 t).mp h)) (fun h => h1 ((hcond0_1 t).mp h)) (outsAt0 m c (t.val - 1) (Nat.lt_of_le_of_lt (Nat.sub_le _ _) t.isLt)).2.1 (outsAt0 m c (t.val - 1) (Nat.lt_of_le_of_lt (Nat.sub_le _ _) t.isLt)).2.2

/-- At the last stretch the output block is formed from the totals as this very point leaves them. -/
theorem outAt_last (c : Dev nD) (t : Fin cfg0.N) (h1 : t.val % 4 = 3) :
    outAt m c t.val t.isLt
      = k0_pay6 (xaAt m c t.val t.isLt) (bblk m c t) (accAt m c t.val t.isLt) (biasblk m c t) := by
  have h0 : ¬t.val % 4 = 0 := by omega
  rw [accAt_next m c t h0, xaAt_next m c t h0]
  show (outsAt0 m c t.val t.isLt).1 = _
  rw [outsAt0_C m c t h0 h1]
  try dsimp only
  exact out_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t) (fun h => h0 ((hcond0_0 t).mp h)) ((hcond0_1 t).mpr h1) (outsAt0 m c (t.val - 1) (Nat.lt_of_le_of_lt (Nat.sub_le _ _) t.isLt)).2.1 (outsAt0 m c (t.val - 1) (Nat.lt_of_le_of_lt (Nat.sub_le _ _) t.isLt)).2.2

end Cert.KernelIdeal.Steps

end
-- ==== Proof.Payload.lean ====
/-
  The body's arithmetic, read at one entry, over the extended reals.

  At the exact instance a matrix product into a zero accumulator is the plain sum of products over the contracted axis,
  a change of float format is the identity, and the zero word is the number zero.  So, at row `p` of the block,
    * the update of `acc` at column `o` adds `∑ k, x p k · w o k` over the 1024 features of the stretch,
    * the update of `xa` at rank `r` adds `∑ k, x p k · a r k`,
    * the output at column `o` is `(acc p o + bias o) + 2 · ∑ r, xa p r · B o r`.
  All three products contract the LAST axis of both operands (the weight blocks are stored row-major by output
  column), so the left operand is read at `(p, k)` and the right at `(column, k)`.
-/
import proofs.«118680_j1108101562874_1_alg».proof.Proof.Gen.KernelIdeal.Skeleton
import proofs.«118680_j1108101562874_1_alg».proof.Proof.Spec
import Idealize.ShloMosaic.Lib.ValueLayout

noncomputable section

namespace Cert.KernelIdeal.Payload

open Cert.KernelIdeal Cert.KernelIdeal.Gen
open Idealize.ShloMosaic Idealize.ShloMosaic.ValueIdx

/-! ## The three products' operand indices, axis by axis -/

theorem lhs_w_0 (i : S256x4096.Idx) (q : dot_S256x1024_S4096x1024_S256x4096_1_1_0_0_n_n.contr.Idx) : (dot_S256x1024_S4096x1024_S256x4096_1_1_0_0_n_n.lhsIdx i q 0).val = (i 0).val := by
  unfold DotDims.lhsIdx
  rw [dif_neg (show ¬(0 : Fin S256x1024.rank) ∈ dot_S256x1024_S4096x1024_S256x4096_1_1_0_0_n_n.lhsBatch by decide), dif_pos (show (0 : Fin S256x1024.rank) ∈ dot_S256x1024_S4096x1024_S256x4096_1_1_0_0_n_n.lhsNonContracting by decide)]
  rfl
theorem lhs_w_1 (i : S256x4096.Idx) (q : dot_S256x1024_S4096x1024_S256x4096_1_1_0_0_n_n.contr.Idx) : (dot_S256x1024_S4096x1024_S256x4096_1_1_0_0_n_n.lhsIdx i q 1).val = (q ⟨0, by decide⟩).val :=
  dot_S256x1024_S4096x1024_S256x4096_1_1_0_0_n_n.lhsIdx_val_of_single rfl i q
theorem rhs_w_0 (i : S256x4096.Idx) (q : dot_S256x1024_S4096x1024_S256x4096_1_1_0_0_n_n.contr.Idx) : (dot_S256x1024_S4096x1024_S256x4096_1_1_0_0_n_n.rhsIdx i q 0).val = (i 1).val := by
  unfold DotDims.rhsIdx
  rw [dif_neg (show ¬(0 : Fin S4096x1024.rank) ∈ dot_S256x1024_S4096x1024_S256x4096_1_1_0_0_n_n.rhsBatch by decide), dif_pos (show (0 : Fin S4096x1024.rank) ∈ dot_S256x1024_S4096x1024_S256x4096_1_1_0_0_n_n.rhsNonContracting by decide)]
  rfl
theorem rhs_w_1 (i : S256x4096.Idx) (q : dot_S256x1024_S4096x1024_S256x4096_1_1_0_0_n_n.contr.Idx) : (dot_S256x1024_S4096x1024_S256x4096_1_1_0_0_n_n.rhsIdx i q 1).val = (q ⟨0, by decide⟩).val :=
  dot_S256x1024_S4096x1024_S256x4096_1_1_0_0_n_n.rhsIdx_val_of_single rfl i q

theorem lhs_a_0 (i : S256x16.Idx) (q : dot_S256x1024_S16x1024_S256x16_1_1_0_0_n_n.contr.Idx) : (dot_S256x1024_S16x1024_S256x16_1_1_0_0_n_n.lhsIdx i q 0).val = (i 0).val := by
  unfold DotDims.lhsIdx
  rw [dif_neg (show ¬(0 : Fin S256x1024.rank) ∈ dot_S256x1024_S16x1024_S256x16_1_1_0_0_n_n.lhsBatch by decide), dif_pos (show (0 : Fin S256x1024.rank) ∈ dot_S256x1024_S16x1024_S256x16_1_1_0_0_n_n.lhsNonContracting by decide)]
  rfl
theorem lhs_a_1 (i : S256x16.Idx) (q : dot_S256x1024_S16x1024_S256x16_1_1_0_0_n_n.contr.Idx) : (dot_S256x1024_S16x1024_S256x16_1_1_0_0_n_n.lhsIdx i q 1).val = (q ⟨0, by decide⟩).val :=
  dot_S256x1024_S16x1024_S256x16_1_1_0_0_n_n.lhsIdx_val_of_single rfl i q
theorem rhs_a_0 (i : S256x16.Idx) (q : dot_S256x1024_S16x1024_S256x16_1_1_0_0_n_n.contr.Idx) : (dot_S256x1024_S16x1024_S256x16_1_1_0_0_n_n.rhsIdx i q 0).val = (i 1).val := by
  unfold DotDims.rhsIdx
  rw [dif_neg (show ¬(0 : Fin S16x1024.rank) ∈ dot_S256x1024_S16x1024_S256x16_1_1_0_0_n_n.rhsBatch by decide), dif_pos (show (0 : Fin S16x1024.rank) ∈ dot_S256x1024_S16x1024_S256x16_1_1_0_0_n_n.rhsNonContracting by decide)]
  rfl
theorem rhs_a_1 (i : S256x16.Idx) (q : dot_S256x1024_S16x1024_S256x16_1_1_0_0_n_n.contr.Idx) : (dot_S256x1024_S16x1024_S256x16_1_1_0_0_n_n.rhsIdx i q 1).val = (q ⟨0, by decide⟩).val :=
  dot_S256x1024_S16x1024_S256x16_1_1_0_0_n_n.rhsIdx_val_of_single rfl i q

theorem lhs_b_0 (i : S256x4096.Idx) (q : dot_S256x16_S4096x16_S256x4096_1_1_0_0_n_n.contr.Idx) : (dot_S256x16_S4096x16_S256x4096_1_1_0_0_n_n.lhsIdx i q 0).val = (i 0).val := by
  unfold DotDims.lhsIdx
  rw [dif_neg (show ¬(0 : Fin S256x16.rank) ∈ dot_S256x16_S4096x16_S256x4096_1_1_0_0_n_n.lhsBatch by decide), dif_pos (show (0 : Fin S256x16.rank) ∈ dot_S256x16_S4096x16_S256x4096_1_1_0_0_n_n.lhsNonContracting by decide)]
  rfl
theorem lhs_b_1 (i : S256x4096.Idx) (q : dot_S256x16_S4096x16_S256x4096_1_1_0_0_n_n.contr.Idx) : (dot_S256x16_S4096x16_S256x4096_1_1_0_0_n_n.lhsIdx i q 1).val = (q ⟨0, by decide⟩).val :=
  dot_S256x16_S4096x16_S256x4096_1_1_0_0_n_n.lhsIdx_val_of_single rfl i q
theorem rhs_b_0 (i : S256x4096.Idx) (q : dot_S256x16_S4096x16_S256x4096_1_1_0_0_n_n.contr.Idx) : (dot_S256x16_S4096x16_S256x4096_1_1_0_0_n_n.rhsIdx i q 0).val = (i 1).val := by
  unfold DotDims.rhsIdx
  rw [dif_neg (show ¬(0 : Fin S4096x16.rank) ∈ dot_S256x16_S4096x16_S256x4096_1_1_0_0_n_n.rhsBatch by decide), dif_pos (show (0 : Fin S4096x16.rank) ∈ dot_S256x16_S4096x16_S256x4096_1_1_0_0_n_n.rhsNonContracting by decide)]
  rfl
theorem rhs_b_1 (i : S256x4096.Idx) (q : dot_S256x16_S4096x16_S256x4096_1_1_0_0_n_n.contr.Idx) : (dot_S256x16_S4096x16_S256x4096_1_1_0_0_n_n.rhsIdx i q 1).val = (q ⟨0, by decide⟩).val :=
  dot_S256x16_S4096x16_S256x4096_1_1_0_0_n_n.rhsIdx_val_of_single rfl i q

/-! ## The three products into a zero accumulator, at an entry -/

/-- Input block times weight block: row `p` against output column `o`, over the stretch's 1024 features. -/
theorem times_w (l : FVec Ideal S256x1024 .bf16) (r : FVec Ideal S4096x1024 .bf16) (p : Fin 256) (o : Fin 4096) :
    matmul dot_S256x1024_S4096x1024_S256x4096_1_1_0_0_n_n none l r (constant (F := Ideal) S256x4096 .f32 0x00000000#32) (ix2 p o)
      = ∑ k : Fin 1024, l (ix2 p k) * r (ix2 o k) := by
  refine (Ideal.matmul_constant_zero_apply dot_S256x1024_S4096x1024_S256x4096_1_1_0_0_n_n none l r _).trans ?_
  rw [← Equiv.sum_comp (contrEquiv1 dot_S256x1024_S4096x1024_S256x4096_1_1_0_0_n_n 1024 rfl rfl).symm]
  refine Finset.sum_congr rfl fun k _ => ?_
  have hk := contrEquiv1_symm_val dot_S256x1024_S4096x1024_S256x4096_1_1_0_0_n_n 1024 rfl rfl k
  have el : dot_S256x1024_S4096x1024_S256x4096_1_1_0_0_n_n.lhsIdx (ix2 p o) ((contrEquiv1 dot_S256x1024_S4096x1024_S256x4096_1_1_0_0_n_n 1024 rfl rfl).symm k) = ix2 p k := funext fun a => Fin.ext (by
    match a with
    | ⟨0, _⟩ => exact lhs_w_0 _ _
    | ⟨1, _⟩ => exact (lhs_w_1 _ _).trans hk)
  have er : dot_S256x1024_S4096x1024_S256x4096_1_1_0_0_n_n.rhsIdx (ix2 p o) ((contrEquiv1 dot_S256x1024_S4096x1024_S256x4096_1_1_0_0_n_n 1024 rfl rfl).symm k) = ix2 o k := funext fun a => Fin.ext (by
    match a with
    | ⟨0, _⟩ => exact rhs_w_0 _ _
    | ⟨1, _⟩ => exact (rhs_w_1 _ _).trans hk)
  rw [el, er]

/-- Input block times down-projection block: row `p` against rank `r`, over the stretch's 1024 features. -/
theorem times_a (l : FVec Ideal S256x1024 .bf16) (r : FVec Ideal S16x1024 .bf16) (p : Fin 256) (ρ : Fin 16) :
    matmul dot_S256x1024_S16x1024_S256x16_1_1_0_0_n_n none l r (constant (F := Ideal) S256x16 .f32 0x00000000#32) (ix2 p ρ)
      = ∑ k : Fin 1024, l (ix2 p k) * r (ix2 ρ k) := by
  refine (Ideal.matmul_constant_zero_apply dot_S256x1024_S16x1024_S256x16_1_1_0_0_n_n none l r _).trans ?_
  rw [← Equiv.sum_comp (contrEquiv1 dot_S256x1024_S16x1024_S256x16_1_1_0_0_n_n 1024 rfl rfl).symm]
  refine Finset.sum_congr rfl fun k _ => ?_
  have hk := contrEquiv1_symm_val dot_S256x1024_S16x1024_S256x16_1_1_0_0_n_n 1024 rfl rfl k
  have el : dot_S256x1024_S16x1024_S256x16_1_1_0_0_n_n.lhsIdx (ix2 p ρ) ((contrEquiv1 dot_S256x1024_S16x1024_S256x16_1_1_0_0_n_n 1024 rfl rfl).symm k) = ix2 p k := funext fun a => Fin.ext (by
    match a with
    | ⟨0, _⟩ => exact lhs_a_0 _ _
    | ⟨1, _⟩ => exact (lhs_a_1 _ _).trans hk)
  have er : dot_S256x1024_S16x1024_S256x16_1_1_0_0_n_n.rhsIdx (ix2 p ρ) ((contrEquiv1 dot_S256x1024_S16x1024_S256x16_1_1_0_0_n_n 1024 rfl rfl).symm k) = ix2 ρ k := funext fun a => Fin.ext (by
    match a with
    | ⟨0, _⟩ => exact rhs_a_0 _ _
    | ⟨1, _⟩ => exact (rhs_a_1 _ _).trans hk)
  rw [el, er]

/-- Down-projected rows times up-projection: row `p` against output column `o`, over the 16 ranks. -/
theorem times_b (l : FVec Ideal S256x16 .bf16) (r : FVec Ideal S4096x16 .bf16) (p : Fin 256) (o : Fin 4096) :
    matmul dot_S256x16_S4096x16_S256x4096_1_1_0_0_n_n none l r (constant (F := Ideal) S256x4096 .f32 0x00000000#32) (ix2 p o)
      = ∑ k : Fin 16, l (ix2 p k) * r (ix2 o k) := by
  refine (Ideal.matmul_constant_zero_apply dot_S256x16_S4096x16_S256x4096_1_1_0_0_n_n none l r _).trans ?_
  rw [← Equiv.sum_comp (contrEquiv1 dot_S256x16_S4096x16_S256x4096_1_1_0_0_n_n 16 rfl rfl).symm]
  refine Finset.sum_congr rfl fun k _ => ?_
  have hk := contrEquiv1_symm_val dot_S256x16_S4096x16_S256x4096_1_1_0_0_n_n 16 rfl rfl k
  have el : dot_S256x16_S4096x16_S256x4096_1_1_0_0_n_n.lhsIdx (ix2 p o) ((contrEquiv1 dot_S256x16_S4096x16_S256x4096_1_1_0_0_n_n 16 rfl rfl).symm k) = ix2 p k := funext fun a => Fin.ext (by
    match a with
    | ⟨0, _⟩ => exact lhs_b_0 _ _
    | ⟨1, _⟩ => exact (lhs_b_1 _ _).trans hk)
  have er : dot_S256x16_S4096x16_S256x4096_1_1_0_0_n_n.rhsIdx (ix2 p o) ((contrEquiv1 dot_S256x16_S4096x16_S256x4096_1_1_0_0_n_n 16 rfl rfl).symm k) = ix2 o k := funext fun a => Fin.ext (by
    match a with
    | ⟨0, _⟩ => exact rhs_b_0 _ _
    | ⟨1, _⟩ => exact (rhs_b_1 _ _).trans hk)
  rw [el, er]

/-! ## The payloads at an entry -/

/-- The block a reset stores into `acc` is zero everywhere. -/
theorem zero_acc_apply (j : S256x4096.Idx) : k0_pay1 (F := Ideal) j = 0 := by
  unfold k0_pay1
  try dsimp only
  rw [shapeCast_self]
  exact Ideal.ofBits_zero_f32

/-- The block a reset stores into `xa` is zero everywhere. -/
theorem zero_xa_apply (j : S256x16.Idx) : k0_pay2 (F := Ideal) j = 0 := by
  unfold k0_pay2
  try dsimp only
  rw [shapeCast_self]
  exact Ideal.ofBits_zero_f32

/-- The update of `acc`: what it held, plus row `p` of the input block against row `o` of the weight block. -/
theorem acc_update_apply (x : FVec Ideal S256x1024 .bf16) (w : FVec Ideal S4096x1024 .bf16) (acc : FVec Ideal S256x4096 .f32)
    (p : Fin 256) (o : Fin 4096) :
    k0_pay4 (F := Ideal) x w acc (ix2 p o) = acc (ix2 p o) + ∑ k : Fin 1024, x (ix2 p k) * w (ix2 o k) := by
  unfold k0_pay4 k0_pay3
  try dsimp only
  rw [shapeCast_self, shapeCast_self, shapeCast_self, addf_apply, times_w]

/-- The update of `xa`: what it held, plus row `p` of the input block against row `ρ` of the down-projection block. -/
theorem xa_update_apply (x : FVec Ideal S256x1024 .bf16) (a : FVec Ideal S16x1024 .bf16) (xa : FVec Ideal S256x16 .f32)
    (p : Fin 256) (ρ : Fin 16) :
    k0_pay5 (F := Ideal) x a xa (ix2 p ρ) = xa (ix2 p ρ) + ∑ k : Fin 1024, x (ix2 p k) * a (ix2 ρ k) := by
  unfold k0_pay5 k0_pay3
  try dsimp only
  rw [shapeCast_self, shapeCast_self, shapeCast_self, addf_apply, times_a]

/-- The output block: `(acc + bias) + 2 · xa·Bᵀ`, the bias row broadcast down the 256 rows. -/
theorem out_apply (xa : FVec Ideal S256x16 .f32) (bm : FVec Ideal S4096x16 .bf16) (acc : FVec Ideal S256x4096 .f32)
    (bias : FVec Ideal S1x4096 .f32) (p : Fin 256) (o : Fin 4096) :
    k0_pay6 (F := Ideal) xa bm acc bias (ix2 p o)
      = (acc (ix2 p o) + bias (ix2 (0 : Fin 1) o)) + Cert.LowRank.two * ∑ ρ : Fin 16, xa (ix2 p ρ) * bm (ix2 o ρ) := by
  unfold k0_pay6
  try dsimp only
  rw [shapeCast_self, shapeCast_self, addf_apply, addf_apply, mulf_apply, broadcast_apply, times_b,
    broadcastTo_1b_ab_apply]
  rfl

end Cert.KernelIdeal.Payload

end
-- ==== Proof.Totals.lean ====
/-
  The totals are partial inner products, and the result array is the layer on rows.

  After point `n` (row block `n / 4`, stretch `n % 4`) the total `acc` holds, at row `p` and output column `o`, the
  inner product of input row `256·(n/4) + p` with weight row `o` over the first `1024·(n%4) + 1024` features, and `xa`
  the same against the down-projection's rows: by induction on the point.  A restart contributes the empty inner
  product (zero); every other point extends what the point before left by one stretch of 1024 features
  (`dotUpTo_add`).  At stretch 3 the inner products are over all 4096 features, and the block written back is the
  layer's value on the block's rows.  The 64 blocks written back (one per row block, all 4096 columns wide) tile the
  result array, so it ends holding the layer on every row.
-/
import proofs.«118680_j1108101562874_1_alg».proof.Proof.Steps
import proofs.«118680_j1108101562874_1_alg».proof.Proof.Payload

set_option maxRecDepth 16384

noncomputable section

namespace Cert.KernelIdeal.Totals

open Cert.KernelIdeal Cert.KernelIdeal.Gen Cert.KernelIdeal.Steps Cert.KernelIdeal.Payload Cert.LowRank
open Idealize.ShloMosaic Idealize.ShloMosaic.TcCoe Idealize.SL.Sem Idealize.ShloMosaic.ValueIdx
open Idealize.ShloMosaic.Pipeline (Dat)

/-- One more stretch: a partial inner product over `1024·k` columns plus the products of the next 1024 columns is the
    partial inner product over `1024·k + 1024` columns. -/
theorem add_stretch {n0 n1 n2 : ℕ} (X : (⟨2, ![n0, n2]⟩ : Shape).Idx → EReal) (Y : (⟨2, ![n1, n2]⟩ : Shape).Idx → EReal)
    (r o k : ℕ) (a : EReal) (xb yb : Fin 1024 → EReal) (ha : a = dotUpTo X Y r o (1024 * k))
    (hx : ∀ j : Fin 1024, xb j = at2 X r (1024 * k + j.val)) (hy : ∀ j : Fin 1024, yb j = at2 Y o (1024 * k + j.val)) :
    a + ∑ j : Fin 1024, xb j * yb j = dotUpTo X Y r o (1024 * k + 1024) := by
  rw [dotUpTo_add, ha]
  exact congrArg _ (Finset.sum_congr rfl fun j _ => by rw [hx, hy])

variable (m : (ℓ : Loc nD τ sig) → Buf (Elt Ideal) ℓ)

/-- `acc` after point `n`: input row `256·(n/4) + p` against weight row `o`, over the stretches done so far. -/
theorem acc_total (c : Dev nD) : ∀ (n : ℕ) (h : n < cfg0.N) (p : Fin 256) (o : Fin 4096),
    accAt m c n h (ix2 p o)
      = dotUpTo (xarr m c) (warr m c) (256 * (n / 4) + p.val) o.val (1024 * (n % 4) + 1024) := by
  intro n
  induction n with
  | zero =>
    intro h p o
    rw [accAt_first m c ⟨0, h⟩ rfl, acc_update_apply, zero_acc_apply]
    exact add_stretch _ _ _ _ (0 % 4) 0 _ _ (dotUpTo_zero _ _ _ _).symm
      (fun j => xblk_apply m c ⟨0, h⟩ p j) (fun j => wblk_apply m c ⟨0, h⟩ o j)
  | succ n ih =>
    intro h p o
    by_cases h0 : (n + 1) % 4 = 0
    · rw [accAt_first m c ⟨n + 1, h⟩ h0, acc_update_apply, zero_acc_apply]
      refine add_stretch _ _ _ _ ((n + 1) % 4) 0 _ _ ?_
        (fun j => xblk_apply m c ⟨n + 1, h⟩ p j) (fun j => wblk_apply m c ⟨n + 1, h⟩ o j)
      rw [h0]
      exact (dotUpTo_zero _ _ _ _).symm
    · rw [accAt_next m c ⟨n + 1, h⟩ h0, acc_update_apply]
      refine add_stretch _ _ _ _ ((n + 1) % 4) _ _ _ ?_
        (fun j => xblk_apply m c ⟨n + 1, h⟩ p j) (fun j => wblk_apply m c ⟨n + 1, h⟩ o j)
      show accAt m c n _ (ix2 p o) = _
      rw [ih _ p o]
      have e1 : 256 * (n / 4) + p.val = 256 * ((n + 1) / 4) + p.val := by omega
      have e2 : 1024 * (n % 4) + 1024 = 1024 * ((n + 1) % 4) := by omega
      rw [e1, e2]

/-- `xa` after point `n`: input row `256·(n/4) + p` against down-projection row `ρ`, over the stretches done so far. -/
theorem xa_total (c : Dev nD) : ∀ (n : ℕ) (h : n < cfg0.N) (p : Fin 256) (ρ : Fin 16),
    xaAt m c n h (ix2 p ρ)
      = dotUpTo (xarr m c) (aarr m c) (256 * (n / 4) + p.val) ρ.val (1024 * (n % 4) + 1024) := by
  intro n
  induction n with
  | zero =>
    intro h p ρ
    rw [xaAt_first m c ⟨0, h⟩ rfl, xa_update_apply, zero_xa_apply]
    exact add_stretch _ _ _ _ (0 % 4) 0 _ _ (dotUpTo_zero _ _ _ _).symm
      (fun j => xblk_apply m c ⟨0, h⟩ p j) (fun j => ablk_apply m c ⟨0, h⟩ ρ j)
  | succ n ih =>
    intro h p ρ
    by_cases h0 : (n + 1) % 4 = 0
    · rw [xaAt_first m c ⟨n + 1, h⟩ h0, xa_update_apply, zero_xa_apply]
      refine add_stretch _ _ _ _ ((n + 1) % 4) 0 _ _ ?_
        (fun j => xblk_apply m c ⟨n + 1, h⟩ p j) (fun j => ablk_apply m c ⟨n + 1, h⟩ ρ j)
      rw [h0]
      exact (dotUpTo_zero _ _ _ _).symm
    · rw [xaAt_next m c ⟨n + 1, h⟩ h0, xa_update_apply]
      refine add_stretch _ _ _ _ ((n + 1) % 4) _ _ _ ?_
        (fun j => xblk_apply m c ⟨n + 1, h⟩ p j) (fun j => ablk_apply m c ⟨n + 1, h⟩ ρ j)
      show xaAt m c n _ (ix2 p ρ) = _
      rw [ih _ p ρ]
      have e1 : 256 * (n / 4) + p.val = 256 * ((n + 1) / 4) + p.val := by omega
      have e2 : 1024 * (n % 4) + 1024 = 1024 * ((n + 1) % 4) := by omega
      rw [e1, e2]

/-- The layer on the rows of the flattened input, of the arrays as the region finds them: what the result array is to
    end holding. -/
abbrev result (c : Dev nD) : Buf (Elt Ideal) ((c : Thread nD τ).loc main_v6) :=
  layer2 (xarr m c) (warr m c) (biasarr m c) (aarr m c) (barr m c)

theorem row_lt (t : Fin cfg0.N) (p : Fin 256) : 256 * (t.val / 4) + p.val < 16384 := by
  have := lt_N t
  have := p.isLt
  omega

/-- At the last stretch of a row block the output block holds the layer's values on the block's 256 rows. -/
theorem out_total (c : Dev nD) (t : Fin cfg0.N) (h3 : t.val % 4 = 3) (p : Fin 256) (o : Fin 4096) :
    outAt m c t.val t.isLt (ix2 p o) = result m c (ix2 ⟨256 * (t.val / 4) + p.val, row_lt t p⟩ o) := by
  rw [outAt_last m c t h3, out_apply, acc_total, biasblk_apply]
  simp only [xa_total, bblk_apply]
  have e : 1024 * (t.val % 4) + 1024 = 4096 := by omega
  rw [e]
  rfl

/-- The output window's block at point `t`, read off a whole array: rows `256·(t/4) …`, every column. -/
theorem read_blk (t : Fin cfg0.N) (G : S16384x4096.Idx → EReal) (p : Fin 256) (o : Fin 4096) :
    ((cfg0.win 5).blk t).view.read (Elt Ideal) G (ix2 p o) = G (ix2 ⟨256 * (t.val / 4) + p.val, row_lt t p⟩ o) := by
  obtain ⟨-, -, -, -, -, -, -, -, -, -, e0, e1⟩ := idx_facts t
  rw [View.read_apply]
  refine congrArg G (funext fun a => Fin.ext ?_)
  match a with
  | ⟨0, _⟩ => show win0_5.index t (0 : Fin 2) * 256 + 1 * p.val = 256 * (t.val / 4) + p.val; omega
  | ⟨1, _⟩ => show win0_5.index t (1 : Fin 2) * 4096 + 1 * o.val = o.val; omega

/-- WHAT A FLUSHING POINT WRITES BACK is its block of the layer's values. -/
theorem flushed_eq (c : Dev nD) (t : Fin cfg0.N) (hf : (cfg0.win 5).flush t = true) :
    (dats m 0 c).flushed 5 t = ((cfg0.win 5).blk t).view.read (Elt Ideal) (result m c) := by
  have h3 : t.val % 4 = 3 := (flush0_5 t).mp hf
  show (cfg0.win 5).cut (grid0.coords t) ((dats m 0 c).after 5 t) = _
  rw [after0_5]
  show outAt m c t.val t.isLt = _
  funext j
  obtain ⟨p, o, rfl⟩ : ∃ (p : Fin 256) (o : Fin 4096), j = ix2 p o := ⟨j 0, j 1, eq_ix2 j⟩
  exact (out_total m c t h3 p o).trans (read_blk t (result m c) p o).symm

/-- An index of the result array is in point `t`'s block iff each coordinate is in the block's range on its axis. -/
theorem mem_blk (t : Fin cfg0.N) (i : S16384x4096.Idx) :
    i ∈ ((cfg0.win 5).blk t).view.set ↔ ∀ a : Fin 2, win0_5.index t a * S256x4096.size a ≤ (i a).val ∧ (i a).val < win0_5.index t a * S256x4096.size a + S256x4096.size a := by
  show i ∈ ((View.whole main_v6).slice (win0_5.rect t)).set ↔ _
  rw [View.set_slice_whole, Rect.mem_set_unit]
  exact Iff.rfl

/-- Every index of the result array is in the block some flushing point writes back: row `ι` is in row block
    `ι / 256`, whose last stretch is point `4·(ι/256) + 3`. -/
theorem cover (i : S16384x4096.Idx) :
    ∃ t : Fin cfg0.N, (cfg0.win 5).flush t = true ∧ i ∈ ((cfg0.win 5).blk t).view.set := by
  have hi0 : (i 0).val < 16384 := (i 0).isLt
  have hi1 : (i 1).val < 4096 := (i 1).isLt
  have hN : cfg0.N = 256 := N_0
  have ht : 4 * ((i 0).val / 256) + 3 < cfg0.N := by rw [hN]; omega
  refine ⟨⟨4 * ((i 0).val / 256) + 3, ht⟩, (flush0_5 _).mpr (by show (4 * ((i 0).val / 256) + 3) % 4 = 3; omega), ?_⟩
  obtain ⟨-, -, -, -, -, -, -, -, -, -, e0, e1⟩ := idx_facts ⟨4 * ((i 0).val / 256) + 3, ht⟩
  have e0' : win0_5.index ⟨4 * ((i 0).val / 256) + 3, ht⟩ (0 : Fin 2) = (i 0).val / 256 := by rw [e0]; show (4 * ((i 0).val / 256) + 3) / 4 = _; omega
  rw [mem_blk]
  intro a
  match a with
  | ⟨0, _⟩ => show win0_5.index ⟨4 * ((i 0).val / 256) + 3, ht⟩ (0 : Fin 2) * 256 ≤ (i 0).val ∧ (i 0).val < win0_5.index ⟨4 * ((i 0).val / 256) + 3, ht⟩ (0 : Fin 2) * 256 + 256; rw [e0']; omega
  | ⟨1, _⟩ => show win0_5.index ⟨4 * ((i 0).val / 256) + 3, ht⟩ (1 : Fin 2) * 4096 ≤ (i 1).val ∧ (i 1).val < win0_5.index ⟨4 * ((i 0).val / 256) + 3, ht⟩ (1 : Fin 2) * 4096 + 4096; rw [e1]; omega

/-- THE RESULT ARRAY after the region: the layer on every row of the flattened input. -/
theorem final (c : Dev nD) : (dats m 0 c).arrAt 5 cfg0.N = result m c :=
  (dats m 0 c).arrAt_eq_of_cover 5 (result m c) (flushed_eq m c) cover

end Cert.KernelIdeal.Totals

end
-- ==== Proof.LayerRun.lean ====
/-
  The idealized kernel's run, read: its result is the layer on the input as given.

  Before the region the host flattens batch and sequence of the input into one row axis, lays the bias out as one row,
  and changes the float format of the four matrices, which over the extended reals changes nothing.  The region leaves
  the layer on rows in its result array (Totals.lean).  After the region the host unflattens the rows.  Flattening,
  the layer on rows, and unflattening compose to the layer on the input as given (`unflatten_layer2`).
-/
import proofs.«118680_j1108101562874_1_alg».proof.Proof.Totals
import Idealize.ShloMosaic.Lib.StableHlo.Run
import Idealize.ShloMosaic.Lib.Tactic

set_option maxRecDepth 16384

noncomputable section

namespace Cert.KernelIdeal.LayerRun

open Cert.KernelIdeal Cert.KernelIdeal.Gen Cert.KernelIdeal.Steps Cert.KernelIdeal.Totals Cert.LowRank
open Idealize.ShloMosaic Idealize.ShloMosaic.TcCoe Idealize.ShloMosaic.Tactic Idealize.SL.Sem Idealize.ShloMosaic.ValueIdx Idealize.ShloMosaic.StableHlo

variable (m : (ℓ : Loc nD τ sig) → Buf (Elt Ideal) ℓ) (ρ : Dev nD → PrngReg)

/-! ## What the region finds: the host lines before it -/

/-- The flattened input is the input with batch and sequence merged. -/
theorem xarr_eq (c : Dev nD) : (xarr m c : S16384x4096.Idx → EReal)
    = shapeCast S16384x4096 (m ((c : Thread nD τ).loc main_arg0)) shapeCasts_S4x4096x4096_S16384x4096 := by
  show StableHlo.after hostOps0 (fun b => m (c, b)) (Proc.devRef .tc main_v1) = _
  after_results
  rfl

/-- The weight is the weight. -/
theorem warr_eq (c : Dev nD) : (warr m c : S4096x4096.Idx → EReal) = (m ((c : Thread nD τ).loc main_arg1)) := by
  show StableHlo.after hostOps0 (fun b => m (c, b)) (Proc.devRef .tc main_v2) = _
  after_results
  rfl

/-- The down-projection is the down-projection. -/
theorem aarr_eq (c : Dev nD) : (aarr m c : S16x4096.Idx → EReal) = (m ((c : Thread nD τ).loc main_arg3)) := by
  show StableHlo.after hostOps0 (fun b => m (c, b)) (Proc.devRef .tc main_v3) = _
  after_results
  rfl

/-- The up-projection is the up-projection. -/
theorem barr_eq (c : Dev nD) : (barr m c : S4096x16.Idx → EReal) = (m ((c : Thread nD τ).loc main_arg4)) := by
  show StableHlo.after hostOps0 (fun b => m (c, b)) (Proc.devRef .tc main_v4) = _
  after_results
  rfl

/-- The bias row is the bias laid out as one row. -/
theorem biasarr_eq (c : Dev nD) : (biasarr m c : S1x4096.Idx → EReal)
    = shapeCast S1x4096 (m ((c : Thread nD τ).loc main_arg2)) shapeCasts_S4096_S1x4096 := by
  show StableHlo.after hostOps0 (fun b => m (c, b)) (Proc.devRef .tc main_v5) = _
  after_results
  rfl

/-! ## What the program returns: the host line after the region -/

/-- The returned array is the region's result array with its rows split back into batch and sequence. -/
theorem tail_eq (c : Dev nD) : Pipeline.afterTail₀ cfgs (dats m) 0 (V0 m) [hostOps1] c main_v7
    = shapeCast S4x4096x4096 (result m c) shapeCasts_S16384x4096_S4x4096x4096 := by
  unfold Pipeline.afterTail₀
  show StableHlo.after hostOps1 _ (Proc.devRef .tc main_v7) = _
  after_results
  have hw : Pipeline.withArrays (cfgs 0).spec c (V0 m c) (fun w => (dats m 0 c).arrAt w (cfgs 0).N) (Proc.tc.devRef main_v6) = result m c :=
    (Pipeline.withArrays_arr spec0 launch0.win.arr_inj c (V0 m c) (fun w => (dats m 0 c).arrAt w cfg0.N) 5).trans (final m c)
  rw [hw]
  rfl

/-- Flatten, run the layer on rows, unflatten: the layer on the input as given. -/
theorem result_eq (c : Dev nD) : shapeCast S4x4096x4096 (result m c) shapeCasts_S16384x4096_S4x4096x4096
    = layer3 (m ((c : Thread nD τ).loc main_arg0)) (m ((c : Thread nD τ).loc main_arg1)) (m ((c : Thread nD τ).loc main_arg2)) (m ((c : Thread nD τ).loc main_arg3)) (m ((c : Thread nD τ).loc main_arg4)) := by
  show shapeCast S4x4096x4096 (layer2 (xarr m c : S16384x4096.Idx → EReal) (warr m c : S4096x4096.Idx → EReal)
    (biasarr m c : S1x4096.Idx → EReal) (aarr m c : S16x4096.Idx → EReal) (barr m c : S4096x16.Idx → EReal)) _ = _
  rw [xarr_eq, warr_eq, biasarr_eq, aarr_eq, barr_eq]
  exact unflatten_layer2 _ _ _ _ _ _ _ _

/-! ## The run -/

/-- Every weakly fair execution of the idealized kernel terminates with the returned array at the layer of its five
    arguments, and the arguments unchanged. -/
theorem run : θ_run defs (onTc (τ := τ) (main (F := Ideal))) ⟨m, fun _ => 0, ρ⟩ fun r => ∀ c : Dev nD,
      r.2.mem ((c : Thread nD τ).loc main_v7)
        = layer3 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨(((h c).2 main_v7 (Pipeline.mem_restRefs_of main_v7 (by decide) (by decide))).trans (tail_eq m c)).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.LayerRun

end
-- ==== Proof.lean ====
/-
  A dense layer with a low-rank adapter, against its plain reference, over the extended reals.

  Both programs take an input `x` (4 × 4096 rows of 4096 features), a weight `W` (4096 × 4096), a bias `b`, a
  down-projection `A` (16 × 4096) and an up-projection `B` (4096 × 16), and return, at row `(β, σ)` and column `o`,

      (∑ d, x β σ d · W o d + b o) + 2 · ∑ r < 16, (∑ d, x β σ d · A r d) · B o r.

  The reference computes exactly this.  The kernel flattens the rows, walks 64 row blocks × 4 stretches of 1024
  features, and keeps two running totals per row block — the partial inner products against `W` and against `A` —
  which restart at the first stretch, grow by one stretch per point, and at the fourth stretch are combined with the
  bias and `B` into the output block.  The two sides differ only in how the sum over the 4096 features is grouped
  (four consecutive stretches added to a total that starts at zero, against one sum), and a finite sum in an additive
  commutative monoid does not depend on that; the inputs' finiteness is not used.  The factor 2 and the order of the
  two outer additions are the same on both sides.

  The three frames: the two kernels' are the generated frame certificates; the reference's is its generated run with the
  result dropped.  The idealization rewrote no operation, so `preserves` is trivially true.
-/
import proofs.«118680_j1108101562874_1_alg».proof.Defs
import proofs.«118680_j1108101562874_1_alg».proof.Proof.Gen.Kernel
import proofs.«118680_j1108101562874_1_alg».proof.Proof.Gen.Kernel.Skeleton
import proofs.«118680_j1108101562874_1_alg».proof.Proof.Gen.Kernel.Launch
import proofs.«118680_j1108101562874_1_alg».proof.Proof.Gen.Kernel.Points
import proofs.«118680_j1108101562874_1_alg».proof.Proof.Gen.Kernel.Frame
import proofs.«118680_j1108101562874_1_alg».proof.Proof.Gen.KernelIdeal
import proofs.«118680_j1108101562874_1_alg».proof.Proof.Gen.KernelIdeal.Skeleton
import proofs.«118680_j1108101562874_1_alg».proof.Proof.Gen.KernelIdeal.Launch
import proofs.«118680_j1108101562874_1_alg».proof.Proof.Gen.KernelIdeal.Points
import proofs.«118680_j1108101562874_1_alg».proof.Proof.Gen.KernelIdeal.Frame
import proofs.«118680_j1108101562874_1_alg».proof.Proof.Gen.ReferenceIdeal
import proofs.«118680_j1108101562874_1_alg».proof.Proof.Gen.ReferenceIdeal.Run
import proofs.«118680_j1108101562874_1_alg».proof.Proof.Gen.ReferenceIdeal.Read
import proofs.«118680_j1108101562874_1_alg».proof.Proof.Gen.Pre_finite_inputs
import proofs.«118680_j1108101562874_1_alg».proof.Proof.RefValue
import proofs.«118680_j1108101562874_1_alg».proof.Proof.LayerRun
import Idealize.ShloMosaic.Adequacy
import Idealize.ShloMosaic.Init

noncomputable section

namespace Cert.Proof

open Idealize.ShloMosaic Idealize.SL.Sem

theorem frame_kernel : Cert.frame_Kernel :=
  fun m ρ _ => Cert.Kernel.Gen.frame m ρ

theorem frame_kernel_ideal : Cert.frame_KernelIdeal :=
  fun m ρ _ => Cert.KernelIdeal.Gen.frame m ρ

theorem frame_reference_ideal : Cert.frame_ReferenceIdeal :=
  fun m ρ _ => (θ_run Cert.ReferenceIdeal.defs _ _).mono (fun _ h c => (h c).2)
    (Cert.ReferenceIdeal.Value.run (F := Ideal) m ρ)

/-- The kernel's returned array ends at the layer of its arguments (LayerRun.lean) and the reference's at its last
    stage of arguments that agree, which is the same layer (RefValue.lean). -/
theorem algebraic : Cert.algebraic_KernelIdeal_ReferenceIdeal := by
  intro m ρ m' ρ' _ hagree
  refine ⟨_, Cert.KernelIdeal.LayerRun.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2,
    Cert.ReferenceIdeal.Read.val_main_v8_eq]
  exact Cert.ReferenceIdeal.RefValue.reference_is_layer _ _ _ _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
